-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x8192x4096 .f32) (main_arg1 : FVec F S8192x4096 .f32) (main_arg2 : FVec F S4096 .f32) (main_arg3 : FVec F S4096 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x8192x4096 : Shape := ⟨3, ![4, 8192, 4096]⟩
abbrev S8192x4096 : Shape := ⟨2, ![8192, 4096]⟩
abbrev S4096 : Shape := ⟨1, ![4096]⟩
abbrev S1x4096 : Shape := ⟨2, ![1, 4096]⟩
abbrev S4x128x4096 : Shape := ⟨3, ![4, 128, 4096]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .f32⟩
  | .local _ .vmem, ⟨0, _⟩ => ⟨S4x128x4096, .f32⟩
  | .local _ .vmem, ⟨1, _⟩ => ⟨S4x128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096_S1x4096 : S4096.ShapeCasts S1x4096
  inb_S4x128x4096_S4x128x4096_0_0_0 : ∀ a, (![0, 0, 0] : Fin 3 → Nat) a + S4x128x4096.size a ≤ S4x128x4096.size a
  h_S4x128x4096 : 0 < S4x128x4096.numel
  reduces_S4x128x4096_S128x4096 : S4x128x4096.Reduces [0] S128x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S4x8192x4096.size a
  hwx0_0 : ∀ i : grid0.Coords, EltTy.bits .f32 = 32 ∨ (Rect.block (s := S4x8192x4096) S4x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩
abbrev S1x4096 : Shape := ⟨2, ![1, 4096]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S4x8192x4096_S8192x4096_d0 : S4x8192x4096.ReducesTo [0] S8192x4096
  h_S_ : 0 < S_.numel
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)

variable [Facts₀]

class Facts : Prop extends Facts₀ where

variable [Facts]
-- ==== Proof.RowNorm.lean ====
/-
  The mathematics of the certificate, program-free. A row of length 4096 is normalised by its root mean square:
  from four partial rows `xs 0 … xs 3`, a bias row `b` and a residual row `r`,

    inter h = (xs 0 h + xs 1 h + xs 2 h + xs 3 h) + b h + r h
    norm h  = inter h · rsqrt ((Σ_k inter k · inter k) / 4096 + ε) · w h

  on the extended reals, with the two float literals (4096 and ε) kept as their bit patterns: both programs print the
  same words, so they are never evaluated. `inter` and `norm` below lay these rows out as [8192, 4096] arrays over the
  [4, 8192, 4096] partial sums, the [8192, 4096] residual and the two length-4096 vectors: row `i 0` of each result depends
  on row `i 0` of the partial sums and of the residual only.
-/
import Idealize.ShloMosaic.PureOps.Ideal
import Idealize.ShloMosaic.Lib.ValueIdx

noncomputable section

open scoped BigOperators

namespace Cert.RowNorm

open Idealize.ShloMosaic Idealize.ShloMosaic.ValueIdx

/-- One row of the intermediate: the four partial rows summed, plus the bias row, plus the residual row. -/
def rowInter (xs : Fin 4 → Fin 4096 → EReal) (b r : Fin 4096 → EReal) : Fin 4096 → EReal :=
  fun h => (∑ k : Fin 4, xs k h) + b h + r h

/-- One row normalised: each entry times the reciprocal root of (the row's mean square plus ε), times the weight. -/
def rowNorm (v w : Fin 4096 → EReal) : Fin 4096 → EReal :=
  fun h => v h * Ideal.rsqrt (Ideal.div (∑ k : Fin 4096, v k * v k) (Ideal.ofBits .f32 0x45800000#32)
    + Ideal.ofBits .f32 0x358637BD#32) * w h

/-- Row `p` of a [4, n, 4096] stack of partial sums, as four rows. -/
abbrev rowsOf {n : Nat} (x : FVec Ideal ⟨3, ![4, n, 4096]⟩ .f32) (p : Fin n) : Fin 4 → Fin 4096 → EReal :=
  fun k h => x (ix3 k p h)

/-- Row `p` of an [n, 4096] matrix. -/
abbrev rowOf {n : Nat} (a : FVec Ideal ⟨2, ![n, 4096]⟩ .f32) (p : Fin n) : Fin 4096 → EReal :=
  fun h => a (ix2 p h)

/-- A length-4096 vector as a row. -/
abbrev vecRow (v : FVec Ideal ⟨1, ![4096]⟩ .f32) : Fin 4096 → EReal := fun h => v (ix1 h)

/-- The intermediate array: entry (r, h) is row r's `rowInter` at h. -/
def inter (x : FVec Ideal ⟨3, ![4, 8192, 4096]⟩ .f32) (res : FVec Ideal ⟨2, ![8192, 4096]⟩ .f32)
    (bias : FVec Ideal ⟨1, ![4096]⟩ .f32) : FVec Ideal ⟨2, ![8192, 4096]⟩ .f32 :=
  fun i => rowInter (rowsOf x (i 0)) (vecRow bias) (rowOf res (i 0)) (i 1)

/-- The normalised array: entry (r, h) is row r's `rowNorm` of its intermediate row at h. -/
def norm (x : FVec Ideal ⟨3, ![4, 8192, 4096]⟩ .f32) (res : FVec Ideal ⟨2, ![8192, 4096]⟩ .f32)
    (bias w : FVec Ideal ⟨1, ![4096]⟩ .f32) : FVec Ideal ⟨2, ![8192, 4096]⟩ .f32 :=
  fun i => rowNorm (rowInter (rowsOf x (i 0)) (vecRow bias) (rowOf res (i 0))) (vecRow w) (i 1)

end Cert.RowNorm

end
-- ==== Proof.RefRows.lean ====
/-
  The reference computes the row normalisation of `RowNorm`: its two results, read one entry at a time through the
  generated stage lemmas, are `RowNorm.norm` and `RowNorm.inter` of its four arguments. The sum over the four partial
  arrays and the sum of squares along a row each start from the zero word, which is the extended real 0; the
  quotient and the reciprocal root are the exact ones; the broadcasts read the bias and the weight at the column
  and the row statistic at the row.
-/
import proofs.«158201_j77335181131889_1_alg».proof.Proof.Gen.ReferenceIdeal.Read
import proofs.«158201_j77335181131889_1_alg».proof.Proof.RowNorm

noncomputable section

open scoped BigOperators

namespace Cert.RefRows

open Cert.ReferenceIdeal Cert.ReferenceIdeal.Gen Cert.ReferenceIdeal.Read Idealize.ShloMosaic Idealize.ShloMosaic.ValueIdx
open Cert.RowNorm

/-- The intermediate at entry `i`: the four partial entries summed from zero, plus the bias at the column, plus
    the residual. -/
theorem inter_apply (x0 : FVec Ideal S4x8192x4096 .f32) (x1 : FVec Ideal S8192x4096 .f32) (x2 : FVec Ideal S4096 .f32)
    (i : S8192x4096.Idx) :
    val_main_v4 (F := Ideal) x0 x1 x2 i = rowInter (rowsOf x0 (i 0)) (vecRow x2) (rowOf x1 (i 0)) (i 1) := by
  rw [val_main_v4_apply, val_main_v3_apply, val_main_v0_apply, val_main_v2_apply, val_main_v1_apply, val_main_cst_apply]
  simp only [Ideal.addf_def, Ideal.ofBits_def, Ideal.ofBits_zero_f32, zero_add]
  have e0 : ∀ k : Fin 4, idx_main_v0 i k = ix3 k (i 0) (i 1) := fun k =>
    funext fun a => Fin.ext (by match a with | ⟨0, _⟩ => rfl | ⟨1, _⟩ => rfl | ⟨2, _⟩ => rfl)
  have e1 : idx_main_v1 (idx_main_v2 i) = ix1 (i 1) := funext fun a => Fin.ext (by match a with | ⟨0, _⟩ => rfl)
  have e2 : x1 i = x1 (ix2 (i 0) (i 1)) := congrArg x1 (eq_ix2 i)
  simp only [e0, e1]
  rw [e2]
  rfl

theorem inter_eq (x0 : FVec Ideal S4x8192x4096 .f32) (x1 : FVec Ideal S8192x4096 .f32) (x2 : FVec Ideal S4096 .f32) :
    val_main_v4 (F := Ideal) x0 x1 x2 = inter x0 x1 x2 :=
  funext fun i => inter_apply x0 x1 x2 i

/-- The normalised result at entry `i`: the intermediate there, times the reciprocal root of its row's mean square
    plus ε, times the weight at the column. -/
theorem norm_apply (x0 : FVec Ideal S4x8192x4096 .f32) (x1 : FVec Ideal S8192x4096 .f32) (x2 x3 : FVec Ideal S4096 .f32)
    (i : S8192x4096.Idx) :
    val_main_v17 (F := Ideal) x0 x1 x2 x3 i = norm x0 x1 x2 x3 i := by
  rw [val_main_v17_apply, val_main_v14_apply, val_main_v16_apply, val_main_v15_apply, val_main_v13_apply,
    val_main_v12_apply, val_main_v11_apply, val_main_v9_apply, val_main_v10_apply, val_main_v8_apply,
    val_main_v7_apply, val_main_v6_apply, val_main_cst_0_apply, val_main_cst_1_apply, val_main_cst_2_apply]
  simp only [val_main_v5_apply, inter_apply]
  simp only [Ideal.mulf_def, Ideal.addf_def, Ideal.hostDivf_def, Ideal.hostUnary_rsqrt_def, Ideal.ofBits_def,
    Ideal.ofBits_zero_f32, zero_add]
  have e0 : ∀ k : Fin 4096, idx_main_v6 (idx_main_v7 (idx_main_v13 i)) k 0 = i 0 := fun _ => rfl
  have e1 : ∀ k : Fin 4096, idx_main_v6 (idx_main_v7 (idx_main_v13 i)) k 1 = k := fun _ => rfl
  have e2 : idx_main_v15 (idx_main_v16 i) = ix1 (i 1) := funext fun a => Fin.ext (by match a with | ⟨0, _⟩ => rfl)
  simp only [e0, e1, e2]
  rfl

theorem norm_eq (x0 : FVec Ideal S4x8192x4096 .f32) (x1 : FVec Ideal S8192x4096 .f32) (x2 x3 : FVec Ideal S4096 .f32) :
    val_main_v17 (F := Ideal) x0 x1 x2 x3 = norm x0 x1 x2 x3 :=
  funext fun i => norm_apply x0 x1 x2 x3 i

end Cert.RefRows

end
-- ==== Proof.KernelRows.lean ====
/-
  What one grid point of the kernel leaves in its two output blocks, at the ideal values, as rows: the body sums the
  four [128, 4096] slabs of its [4, 128, 4096] block along the leading axis, adds the one-row bias block broadcast
  down the rows and the residual block, and that is the block of the intermediate; it then sums the squares along
  each row, divides by 4096, adds ε, takes the reciprocal root, broadcasts it along the row, and multiplies by the
  intermediate and by the one-row weight block. So row p of each block is `RowNorm.rowInter` /
  `RowNorm.rowNorm` of row p of the input blocks. The generated value leg already reads the body's layout
  operations at an index (`E4`, `E5`); here the two reductions are read as sums.
-/
import proofs.«158201_j77335181131889_1_alg».proof.Proof.Gen.KernelIdeal.Value
import proofs.«158201_j77335181131889_1_alg».proof.Proof.RowNorm
import Idealize.ShloMosaic.PureOps.Ideal.Laws

noncomputable section

open scoped BigOperators

namespace Cert.KernelRows

open Cert.KernelIdeal Cert.KernelIdeal.Gen Cert.KernelIdeal.Value Idealize.ShloMosaic Idealize.ShloMosaic.ValueIdx
open Cert.RowNorm

theorem zero2 : (![0, 0] : Fin 2 → Nat) = fun _ => 0 := funext fun a => by fin_cases a <;> rfl
theorem zero3 : (![0, 0, 0] : Fin 3 → Nat) = fun _ => 0 := funext fun a => by fin_cases a <;> rfl

section generic
variable {F : FTy → Type} [FloatOps F]

/-- The intermediate's payload, entry by entry, is the generated index-by-index form. -/
theorem pay1_apply (P0 : Vec F S4x128x4096 .f32) (P1 : Vec F S1x4096 .f32) (P2 : Vec F S128x4096 .f32) (y : S128x4096.Idx) :
    k0_pay1 P0 P1 P2 y = E5 P0 P1 P2 y := by
  have h := canon5_eq P0 P1 P2 y
  rw [View.canon_unit_zero zero2] at h
  exact h

/-- The normalised payload, entry by entry, is the generated index-by-index form. -/
theorem pay2_apply (P0 : Vec F S4x128x4096 .f32) (P1 : Vec F S1x4096 .f32) (P2 : Vec F S128x4096 .f32) (P3 : Vec F S1x4096 .f32)
    (y : S128x4096.Idx) : k0_pay2 P0 P1 P2 P3 y = E4 P0 P1 P2 P3 y := by
  have h := canon4_eq P0 P1 P2 P3 y
  rw [View.canon_unit_zero zero2] at h
  exact h

end generic

/-- The sum along the leading axis of a [4, 128, 4096] block at (p, q): its four slabs' entries there, added. -/
theorem sum_slabs (P0 : FVec Ideal S4x128x4096 .f32) (p : Fin 128) (q : Fin 4096) :
    multiReduction (F := Ideal) .add [0] S128x4096 P0 0x00000000#32 reduces_S4x128x4096_S128x4096 (.inl rfl) rfl (ix2 p q)
      = ∑ k : Fin 4, P0 (ix3 k p q) := by
  refine (Ideal.multiReduction_add_single P0 0x00000000#32 reduces_S4x128x4096_S128x4096 (.inl rfl) rfl (ix2 p q)).trans ?_
  refine Finset.sum_congr rfl fun k _ => congrArg P0 (funext fun a => Fin.ext ?_)
  match a with
  | ⟨0, _⟩ => rfl
  | ⟨1, _⟩ => rfl
  | ⟨2, _⟩ => rfl

/-- The sum along row p of the squares of a [128, 4096] block. -/
theorem sum_squares (A : FVec Ideal S128x4096 .f32) (p : Fin 128) :
    multiReduction (F := Ideal) .add [1] S128 (mulf A A) 0x00000000#32 reduces_S128x4096_S128 (.inl rfl) rfl (ix1 p)
      = ∑ k : Fin 4096, A (ix2 p k) * A (ix2 p k) := by
  refine (Ideal.multiReduction_add_single (mulf A A) 0x00000000#32 reduces_S128x4096_S128 (.inl rfl) rfl (ix1 p)).trans ?_
  refine Finset.sum_congr rfl fun k _ => ?_
  have e : (reduces_S128x4096_S128.lift (ix1 p) k : S128x4096.Idx) = ix2 p k := funext fun a => Fin.ext (by
    match a with
    | ⟨0, _⟩ => rfl
    | ⟨1, _⟩ => rfl)
  rw [e]; rfl

/-- Row p of the intermediate's block: `rowInter` of row p of the slabs, the bias block's one row and row p of the
    residual block. -/
theorem blockInter_apply (P0 : FVec Ideal S4x128x4096 .f32) (P1 : FVec Ideal S1x4096 .f32) (P2 : FVec Ideal S128x4096 .f32)
    (p : Fin 128) (q : Fin 4096) :
    E5 (F := Ideal) P0 P1 P2 (ix2 p q) = rowInter (rowsOf P0 p) (rowOf P1 0) (rowOf P2 p) q := by
  have e0 : ix5_0 (ix2 p q) = ix2 p q := funext fun a => Fin.ext (by match a with | ⟨0, _⟩ => rfl | ⟨1, _⟩ => rfl)
  have e1 : ix5_1 (ix2 p q) = ix2 (0 : Fin 1) q := funext fun a => Fin.ext (by match a with | ⟨0, _⟩ => rfl | ⟨1, _⟩ => rfl)
  have e2 : ix5_2 (ix2 p q) = ix2 p q := funext fun a => Fin.ext (by match a with | ⟨0, _⟩ => rfl | ⟨1, _⟩ => rfl)
  unfold E5
  simp only [Ideal.addf_def]
  rw [e0, e1, e2, sum_slabs]
  rfl

/-- Row p of the normalised block: `rowNorm` of that intermediate row with the weight block's one row. -/
theorem blockNorm_apply (P0 : FVec Ideal S4x128x4096 .f32) (P1 : FVec Ideal S1x4096 .f32) (P2 : FVec Ideal S128x4096 .f32)
    (P3 : FVec Ideal S1x4096 .f32) (p : Fin 128) (q : Fin 4096) :
    E4 (F := Ideal) P0 P1 P2 P3 (ix2 p q)
      = rowNorm (rowInter (rowsOf P0 p) (rowOf P1 0) (rowOf P2 p)) (rowOf P3 0) q := by
  have e0 : ix4_0 (ix2 p q) = ix2 p q := funext fun a => Fin.ext (by match a with | ⟨0, _⟩ => rfl | ⟨1, _⟩ => rfl)
  have e1 : ix4_1 (ix2 p q) = ix2 (0 : Fin 1) q := funext fun a => Fin.ext (by match a with | ⟨0, _⟩ => rfl | ⟨1, _⟩ => rfl)
  have e2 : ix4_2 (ix2 p q) = ix2 p q := funext fun a => Fin.ext (by match a with | ⟨0, _⟩ => rfl | ⟨1, _⟩ => rfl)
  have e3 : ix4_3 (ix2 p q) = ix1 p := funext fun a => Fin.ext (by match a with | ⟨0, _⟩ => rfl)
  have e4 : ix4_4 (ix2 p q) = ix2 (0 : Fin 1) q := funext fun a => Fin.ext (by match a with | ⟨0, _⟩ => rfl | ⟨1, _⟩ => rfl)
  unfold E4
  simp only [Ideal.addf_def, Ideal.mulf_def, Ideal.divf_def, Ideal.rsqrt_def]
  rw [e0, e1, e2, e3, e4, sum_slabs, ← lay5_0_eq (F := Ideal) P0 P1 P2, sum_squares]
  simp only [pay1_apply, blockInter_apply]
  rfl

/-- One entry of the intermediate's payload, when row p of the blocks is row r of the arrays `X`, `R` and the bias
    block is the vector `B` as a row. -/
theorem pointInter (P0 : FVec Ideal S4x128x4096 .f32) (P1 : FVec Ideal S1x4096 .f32) (P2 : FVec Ideal S128x4096 .f32)
    (X : FVec Ideal ⟨3, ![4, 8192, 4096]⟩ .f32) (R : FVec Ideal ⟨2, ![8192, 4096]⟩ .f32) (B : FVec Ideal ⟨1, ![4096]⟩ .f32)
    (p : Fin 128) (q : Fin 4096) (r : Fin 8192)
    (h0 : ∀ k h, P0 (ix3 k p h) = X (ix3 k r h)) (h1 : ∀ h, P1 (ix2 (0 : Fin 1) h) = B (ix1 h))
    (h2 : ∀ h, P2 (ix2 p h) = R (ix2 r h)) :
    k0_pay1 (F := Ideal) P0 P1 P2 (ix2 p q) = rowInter (rowsOf X r) (vecRow B) (rowOf R r) q := by
  rw [pay1_apply, blockInter_apply]
  have e0 : rowsOf P0 p = rowsOf X r := funext fun k => funext fun h => h0 k h
  have e1 : rowOf P1 0 = vecRow B := funext fun h => h1 h
  have e2 : rowOf P2 p = rowOf R r := funext fun h => h2 h
  rw [e0, e1, e2]

/-- One entry of the normalised payload, under the same reading of the blocks, the weight block the vector `W`. -/
theorem pointNorm (P0 : FVec Ideal S4x128x4096 .f32) (P1 : FVec Ideal S1x4096 .f32) (P2 : FVec Ideal S128x4096 .f32)
    (P3 : FVec Ideal S1x4096 .f32)
    (X : FVec Ideal ⟨3, ![4, 8192, 4096]⟩ .f32) (R : FVec Ideal ⟨2, ![8192, 4096]⟩ .f32) (B W : FVec Ideal ⟨1, ![4096]⟩ .f32)
    (p : Fin 128) (q : Fin 4096) (r : Fin 8192)
    (h0 : ∀ k h, P0 (ix3 k p h) = X (ix3 k r h)) (h1 : ∀ h, P1 (ix2 (0 : Fin 1) h) = B (ix1 h))
    (h2 : ∀ h, P2 (ix2 p h) = R (ix2 r h)) (h3 : ∀ h, P3 (ix2 (0 : Fin 1) h) = W (ix1 h)) :
    k0_pay2 (F := Ideal) P0 P1 P2 P3 (ix2 p q)
      = rowNorm (rowInter (rowsOf X r) (vecRow B) (rowOf R r)) (vecRow W) q := by
  rw [pay2_apply, blockNorm_apply]
  have e0 : rowsOf P0 p = rowsOf X r := funext fun k => funext fun h => h0 k h
  have e1 : rowOf P1 0 = vecRow B := funext fun h => h1 h
  have e2 : rowOf P2 p = rowOf R r := funext fun h => h2 h
  have e3 : rowOf P3 0 = vecRow W := funext fun h => h3 h
  rw [e0, e1, e2, e3]

end Cert.KernelRows

end
-- ==== Proof.KernelArrays.lean ====
/-
  From blocks to arrays. Grid point t of the kernel holds rows 128·t … 128·t + 127: its block of the partial sums is
  those rows of all four slabs, its residual block those rows of the residual, and its bias and weight blocks the
  whole one-row arrays the host reshaped the two vectors into. So what point t writes back to each output is rows
  128·t … 128·t + 127 of `RowNorm.norm` / `RowNorm.inter` of the four argument arrays; the 64 points' blocks tile the
  8192 rows, so after the run each output array is that function of the arguments.
-/
import proofs.«158201_j77335181131889_1_alg».proof.Proof.Gen.KernelIdeal.Value
import proofs.«158201_j77335181131889_1_alg».proof.Proof.KernelRows
import Idealize.ShloMosaic.Lib.Pipeline.Value
import Idealize.ShloMosaic.Lib.ValueLayout
import Idealize.ShloMosaic.Lib.StableHlo.Run

noncomputable section

open scoped BigOperators

namespace Cert.KernelArrays

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)
open Cert.RowNorm Cert.KernelRows

variable (m : (ℓ : Loc nD τ sig) → Buf (Elt Ideal) ℓ) (ρ : Dev nD → PrngReg)

/-- The four argument arrays on core `c`, at their literal types. -/
abbrev xArr (c : Dev nD) : FVec Ideal S4x8192x4096 .f32 := m ((c : Thread nD τ).loc main_arg0)
abbrev resArr (c : Dev nD) : FVec Ideal S8192x4096 .f32 := m ((c : Thread nD τ).loc main_arg1)
abbrev biasArr (c : Dev nD) : FVec Ideal S4096 .f32 := m ((c : Thread nD τ).loc main_arg2)
abbrev wArr (c : Dev nD) : FVec Ideal S4096 .f32 := m ((c : Thread nD τ).loc main_arg3)

/-- The printed index maps over the 64 points: the row-blocked windows sit at block row t, the rest at the origin. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The bias as the region finds it: the vector reshaped to one row. -/
theorem biasRow_eq (c : Dev nD) :
    (V m c main_v0 : FVec Ideal S1x4096 .f32) = shapeCast S1x4096 (biasArr m c) shapeCasts_S4096_S1x4096 := by
  dsimp only [V, hostOps0]
  after_results
  rfl

/-- The weight as the region finds it: the vector reshaped to one row. -/
theorem wRow_eq (c : Dev nD) :
    (V m c main_v1 : FVec Ideal S1x4096 .f32) = shapeCast S1x4096 (wArr m c) shapeCasts_S4096_S1x4096 := by
  dsimp only [V, hostOps0]
  after_results
  rfl

/-- Entry (k, p, h) of point t's block of the partial sums is entry (k, 128·t + p, h) of the array. -/
theorem xblk_apply (c : Dev nD) (t : Fin cfg0.N) (k : Fin 4) (p : Fin 128) (h : Fin 4096) (r : Fin 8192)
    (hr : r.val = 128 * t.val + p.val) :
    (iblk m c 0 t : Vec Ideal S4x128x4096 .f32) (ix3 k p h) = xArr m c (ix3 k r h) := by
  obtain ⟨e0, e1, e2, -⟩ := idx_facts t
  unfold iblk
  rw [View.read_apply]
  show V m c main_arg0 _ = m ((c : Thread nD τ).loc main_arg0) _
  refine (congrFun (V_main_arg0 m c) _).trans ?_
  congr 1
  funext a
  apply Fin.ext
  match a with
  | ⟨0, _⟩ => show win0_0.index t (0 : Fin 3) * 4 + 1 * k.val = k.val; rw [e0]; omega
  | ⟨1, _⟩ => show win0_0.index t (1 : Fin 3) * 128 + 1 * p.val = r.val; rw [e1, hr]; omega
  | ⟨2, _⟩ => show win0_0.index t (2 : Fin 3) * 4096 + 1 * h.val = h.val; rw [e2]; omega

/-- Entry (p, h) of point t's block of the residual is entry (128·t + p, h) of the array. -/
theorem resblk_apply (c : Dev nD) (t : Fin cfg0.N) (p : Fin 128) (h : Fin 4096) (r : Fin 8192)
    (hr : r.val = 128 * t.val + p.val) :
    (iblk m c 1 t : Vec Ideal S128x4096 .f32) (ix2 p h) = resArr m c (ix2 r h) := by
  obtain ⟨-, -, -, e0, e1, -⟩ := idx_facts t
  unfold iblk
  rw [View.read_apply]
  show V m c main_arg1 _ = m ((c : Thread nD τ).loc main_arg1) _
  refine (congrFun (V_main_arg1 m c) _).trans ?_
  congr 1
  funext a
  apply Fin.ext
  match a with
  | ⟨0, _⟩ => show win0_1.index t (0 : Fin 2) * 128 + 1 * p.val = r.val; rw [e0, hr]; omega
  | ⟨1, _⟩ => show win0_1.index t (1 : Fin 2) * 4096 + 1 * h.val = h.val; rw [e1]; omega

/-- Point t's bias block is the bias vector as one row. -/
theorem biasblk_apply (c : Dev nD) (t : Fin cfg0.N) (h : Fin 4096) :
    (iblk m c 2 t : Vec Ideal S1x4096 .f32) (ix2 (0 : Fin 1) h) = biasArr m c (ix1 h) := by
  obtain ⟨-, -, -, -, -, e0, e1, -⟩ := idx_facts t
  unfold iblk
  rw [View.read_apply]
  show (V m c main_v0 : FVec Ideal S1x4096 .f32) _ = _
  rw [biasRow_eq]
  refine Eq.trans ?_ (shapeCast_a_1a_apply (biasArr m c) shapeCasts_S4096_S1x4096 (0 : Fin 1) h)
  congr 1
  funext a
  apply Fin.ext
  match a with
  | ⟨0, _⟩ => show win0_2.index t (0 : Fin 2) * 1 + 1 * 0 = 0; rw [e0]
  | ⟨1, _⟩ => show win0_2.index t (1 : Fin 2) * 4096 + 1 * h.val = h.val; rw [e1]; omega

/-- Point t's weight block is the weight vector as one row. -/
theorem wblk_apply (c : Dev nD) (t : Fin cfg0.N) (h : Fin 4096) :
    (iblk m c 3 t : Vec Ideal S1x4096 .f32) (ix2 (0 : Fin 1) h) = wArr m c (ix1 h) := by
  obtain ⟨-, -, -, -, -, -, -, e0, e1, -⟩ := idx_facts t
  unfold iblk
  rw [View.read_apply]
  show (V m c main_v1 : FVec Ideal S1x4096 .f32) _ = _
  rw [wRow_eq]
  refine Eq.trans ?_ (shapeCast_a_1a_apply (wArr m c) shapeCasts_S4096_S1x4096 (0 : Fin 1) h)
  congr 1
  funext a
  apply Fin.ext
  match a with
  | ⟨0, _⟩ => show win0_3.index t (0 : Fin 2) * 1 + 1 * 0 = 0; rw [e0]
  | ⟨1, _⟩ => show win0_3.index t (1 : Fin 2) * 4096 + 1 * h.val = h.val; rw [e1]; omega

/-! ## What a point writes back -/

/-- Point t writes back to the intermediate's array its rows of `RowNorm.inter` of the arguments. -/
theorem flushed_inter (c : Dev nD) (t : Fin cfg0.N) :
    (dats m 0 c).flushed 5 t
      = ((cfg0.win 5).blk t).view.read (Elt Ideal) (inter (xArr m c) (resArr m c) (biasArr m c)) := by
  rw [flushed5]
  unfold out0_5
  rw [View.canon_unit_zero zero2]
  simp only [View.ld_unit_zero (S := S4x128x4096) zero3, View.ld_unit_zero (S := S1x4096) zero2,
    View.ld_unit_zero (S := S128x4096) zero2]
  obtain ⟨-, -, -, -, -, -, -, -, -, -, -, e0, e1⟩ := idx_facts t
  funext j
  change S128x4096.Idx at j
  obtain ⟨p, q, rfl⟩ : ∃ (p : Fin 128) (q : Fin 4096), j = ix2 p q := ⟨j 0, j 1, eq_ix2 j⟩
  have hr : ((((cfg0.win 5).blk t).view.emb (ix2 p q)) (0 : Fin 2)).val = 128 * t.val + p.val := by
    show win0_5.index t (0 : Fin 2) * 128 + 1 * p.val = _
    rw [e0]; omega
  have hq : (((cfg0.win 5).blk t).view.emb (ix2 p q)) (1 : Fin 2) = q := Fin.ext (by
    show win0_5.index t (1 : Fin 2) * 4096 + 1 * q.val = q.val
    rw [e1]; omega)
  show k0_pay1 (iblk m c 0 t) (iblk m c 2 t) (iblk m c 1 t) (ix2 p q)
    = inter (xArr m c) (resArr m c) (biasArr m c) (((cfg0.win 5).blk t).view.emb (ix2 p q))
  refine (pointInter (iblk m c 0 t) (iblk m c 2 t) (iblk m c 1 t) (xArr m c) (resArr m c) (biasArr m c) p q
    ((((cfg0.win 5).blk t).view.emb (ix2 p q)) (0 : Fin 2))
    (fun k h => xblk_apply m c t k p h _ hr) (fun h => biasblk_apply m c t h)
    (fun h => resblk_apply m c t p h _ hr)).trans ?_
  unfold inter
  rw [hq]

/-- Point t writes back to the normalised array its rows of `RowNorm.norm` of the arguments. -/
theorem flushed_norm (c : Dev nD) (t : Fin cfg0.N) :
    (dats m 0 c).flushed 4 t
      = ((cfg0.win 4).blk t).view.read (Elt Ideal) (RowNorm.norm (xArr m c) (resArr m c) (biasArr m c) (wArr m c)) := by
  rw [flushed4]
  unfold out0_4
  rw [View.canon_unit_zero zero2]
  simp only [View.ld_unit_zero (S := S4x128x4096) zero3, View.ld_unit_zero (S := S1x4096) zero2,
    View.ld_unit_zero (S := S128x4096) zero2]
  obtain ⟨-, -, -, -, -, -, -, -, -, e0, e1, -⟩ := idx_facts t
  funext j
  change S128x4096.Idx at j
  obtain ⟨p, q, rfl⟩ : ∃ (p : Fin 128) (q : Fin 4096), j = ix2 p q := ⟨j 0, j 1, eq_ix2 j⟩
  have hr : ((((cfg0.win 4).blk t).view.emb (ix2 p q)) (0 : Fin 2)).val = 128 * t.val + p.val := by
    show win0_4.index t (0 : Fin 2) * 128 + 1 * p.val = _
    rw [e0]; omega
  have hq : (((cfg0.win 4).blk t).view.emb (ix2 p q)) (1 : Fin 2) = q := Fin.ext (by
    show win0_4.index t (1 : Fin 2) * 4096 + 1 * q.val = q.val
    rw [e1]; omega)
  show k0_pay2 (iblk m c 0 t) (iblk m c 2 t) (iblk m c 1 t) (iblk m c 3 t) (ix2 p q)
    = RowNorm.norm (xArr m c) (resArr m c) (biasArr m c) (wArr m c) (((cfg0.win 4).blk t).view.emb (ix2 p q))
  refine (pointNorm (iblk m c 0 t) (iblk m c 2 t) (iblk m c 1 t) (iblk m c 3 t) (xArr m c) (resArr m c) (biasArr m c)
    (wArr m c) p q ((((cfg0.win 4).blk t).view.emb (ix2 p q)) (0 : Fin 2))
    (fun k h => xblk_apply m c t k p h _ hr) (fun h => biasblk_apply m c t h)
    (fun h => resblk_apply m c t p h _ hr) (fun h => wblk_apply m c t h)).trans ?_
  unfold RowNorm.norm
  rw [hq]

/-! ## The blocks tile the rows -/

/-- An index is in point t's block of an output iff each coordinate is in the block's range on its axis. -/
theorem mem_blk4 (t : Fin cfg0.N) (i : S8192x4096.Idx) :
    i ∈ ((cfg0.win 4).blk t).view.set ↔ ∀ a : Fin 2, win0_4.index t a * S128x4096.size a ≤ (i a).val
      ∧ (i a).val < win0_4.index t a * S128x4096.size a + S128x4096.size a := by
  show i ∈ ((View.whole main_v2_0).slice (win0_4.rect t)).set ↔ _
  rw [View.set_slice_whole, Rect.mem_set_unit]
  exact Iff.rfl

theorem mem_blk5 (t : Fin cfg0.N) (i : S8192x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v2_1).slice (win0_5.rect t)).set ↔ _
  rw [View.set_slice_whole, Rect.mem_set_unit]
  exact Iff.rfl

/-- Row r lies in the block of point r / 128. -/
theorem cover4 (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 64 := N_0
  have ht : (i 0).val / 128 < cfg0.N := by rw [hN]; omega
  obtain ⟨-, -, -, -, -, -, -, -, -, e0, e1, -⟩ := idx_facts ⟨(i 0).val / 128, ht⟩
  refine ⟨⟨(i 0).val / 128, ht⟩, flush0_4 _, ?_⟩
  rw [mem_blk4]
  intro a
  match a with
  | ⟨0, _⟩ =>
    show win0_4.index ⟨(i 0).val / 128, ht⟩ (0 : Fin 2) * 128 ≤ (i 0).val
      ∧ (i 0).val < win0_4.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_4.index ⟨(i 0).val / 128, ht⟩ (1 : Fin 2) * 4096 ≤ (i 1).val
      ∧ (i 1).val < win0_4.index ⟨(i 0).val / 128, ht⟩ (1 : Fin 2) * 4096 + 4096
    rw [e1]; omega

theorem cover5 (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 64 := N_0
  have ht : (i 0).val / 128 < cfg0.N := by rw [hN]; omega
  obtain ⟨-, -, -, -, -, -, -, -, -, -, -, e0, e1⟩ := idx_facts ⟨(i 0).val / 128, ht⟩
  refine ⟨⟨(i 0).val / 128, ht⟩, flush0_5 _, ?_⟩
  rw [mem_blk5]
  intro a
  match a with
  | ⟨0, _⟩ =>
    show win0_5.index ⟨(i 0).val / 128, ht⟩ (0 : Fin 2) * 128 ≤ (i 0).val
      ∧ (i 0).val < win0_5.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_5.index ⟨(i 0).val / 128, ht⟩ (1 : Fin 2) * 4096 ≤ (i 1).val
      ∧ (i 1).val < win0_5.index ⟨(i 0).val / 128, ht⟩ (1 : Fin 2) * 4096 + 4096
    rw [e1]; omega

/-! ## The arrays after the run -/

theorem final_norm (c : Dev nD) :
    (dats m 0 c).arrAt 4 cfg0.N = RowNorm.norm (xArr m c) (resArr m c) (biasArr m c) (wArr m c) :=
  (dats m 0 c).arrAt_eq_of_cover 4 (RowNorm.norm (xArr m c) (resArr m c) (biasArr m c) (wArr m c))
    (fun t _ => flushed_norm m c t) cover4

theorem final_inter (c : Dev nD) :
    (dats m 0 c).arrAt 5 cfg0.N = inter (xArr m c) (resArr m c) (biasArr m c) :=
  (dats m 0 c).arrAt_eq_of_cover 5 (inter (xArr m c) (resArr m c) (biasArr m c))
    (fun t _ => flushed_inter m c t) cover5

/-- The kernel's run at the ideal values: the two results end at `RowNorm.norm` and `RowNorm.inter` of the arguments, the
    arguments unchanged. -/
theorem run : θ_run defs (onTc (τ := τ) (main (F := Ideal))) ⟨m, fun _ => 0, ρ⟩ fun r => ∀ c : Dev nD,
      r.2.mem ((c : Thread nD τ).loc main_v2_0) = RowNorm.norm (xArr m c) (resArr m c) (biasArr m c) (wArr m c)
      ∧ r.2.mem ((c : Thread nD τ).loc main_v2_1) = inter (xArr m c) (resArr m c) (biasArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_norm m c), (h c).2.1.trans (final_inter m c), (h c).2.2⟩)
    (run_blocks m ρ)

end Cert.KernelArrays

end
-- ==== Proof.lean ====
/-
  The kernel sums four partial activations, adds a bias and a residual, and normalises each row of 4096 entries by its
  root mean square with an affine weight; the reference does the same with whole-array operations. At the ideal values both are, entry by
  entry, `RowNorm.inter` (the sum) and `RowNorm.norm` (the normalised sum) of the four argument arrays, with the same
  order of additions and products and the same two literals, so no algebraic law beyond 0 + s = s (the sums' zero
  accumulators) joins them and the inputs' finiteness is not used.
  Kernel side: each of the 64 grid points computes 128 whole rows (`KernelRows`), and the points' blocks tile the 8192
  rows (`KernelArrays`). Reference side: its stages read one entry at a time (`RefRows`).
  The two kernel frames are the generated ones; the reference's frame is its generated run with the results dropped;
  the idealization rewrote nothing, so `preserves` is trivial.
-/
import proofs.«158201_j77335181131889_1_alg».proof.Defs
import proofs.«158201_j77335181131889_1_alg».proof.Proof.Gen.Kernel
import proofs.«158201_j77335181131889_1_alg».proof.Proof.Gen.Kernel.Skeleton
import proofs.«158201_j77335181131889_1_alg».proof.Proof.Gen.Kernel.Launch
import proofs.«158201_j77335181131889_1_alg».proof.Proof.Gen.Kernel.Points
import proofs.«158201_j77335181131889_1_alg».proof.Proof.Gen.Kernel.Frame
import proofs.«158201_j77335181131889_1_alg».proof.Proof.Gen.KernelIdeal
import proofs.«158201_j77335181131889_1_alg».proof.Proof.Gen.KernelIdeal.Skeleton
import proofs.«158201_j77335181131889_1_alg».proof.Proof.Gen.KernelIdeal.Launch
import proofs.«158201_j77335181131889_1_alg».proof.Proof.Gen.KernelIdeal.Points
import proofs.«158201_j77335181131889_1_alg».proof.Proof.Gen.KernelIdeal.Frame
import proofs.«158201_j77335181131889_1_alg».proof.Proof.Gen.ReferenceIdeal
import proofs.«158201_j77335181131889_1_alg».proof.Proof.Gen.Pre_finite_inputs
import proofs.«158201_j77335181131889_1_alg».proof.Proof.Gen.KernelIdeal.Value
import proofs.«158201_j77335181131889_1_alg».proof.Proof.Gen.ReferenceIdeal.Run
import proofs.«158201_j77335181131889_1_alg».proof.Proof.Gen.ReferenceIdeal.Read
import proofs.«158201_j77335181131889_1_alg».proof.Proof.RowNorm
import proofs.«158201_j77335181131889_1_alg».proof.Proof.RefRows
import proofs.«158201_j77335181131889_1_alg».proof.Proof.KernelRows
import proofs.«158201_j77335181131889_1_alg».proof.Proof.KernelArrays
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the two results' values dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the normalised array at `RowNorm.norm` and the intermediate at `RowNorm.inter` of the
    arguments they agree on. -/
theorem algebraic : Cert.algebraic_KernelIdeal_ReferenceIdeal := by
  intro m ρ m' ρ' _ hagree
  refine ⟨_, _, Cert.KernelArrays.run m ρ, ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ?_, (h c).2.1.trans ?_, (h c).2.2⟩
  · rw [a0, a1, a2, a3, Cert.ReferenceIdeal.Read.val_main_v17_eq]
    exact Cert.RefRows.norm_eq _ _ _ _
  · rw [a0, a1, a2, Cert.ReferenceIdeal.Read.val_main_v4_eq]
    exact Cert.RefRows.inter_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
